-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 103
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x128, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000, .f32⟩
  | .hbm, ⟨84, _⟩ => ⟨S850000, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000x128, .f32⟩
  | .hbm, ⟨94, _⟩ => ⟨S850000x1, .f32⟩
  | .hbm, ⟨95, _⟩ => ⟨S850000x128, .f32⟩
  | .hbm, ⟨96, _⟩ => ⟨S850000x128, .f32⟩
  | .hbm, ⟨97, _⟩ => ⟨S_, .f32⟩
  | .hbm, ⟨98, _⟩ => ⟨S50000x128, .f32⟩
  | .hbm, ⟨99, _⟩ => ⟨S850000x1, .i32⟩
  | .hbm, ⟨100, _⟩ => ⟨S50000x128, .f32⟩
  | .hbm, ⟨101, _⟩ => ⟨S1x128, .f32⟩
  | .hbm, ⟨102, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x128, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S850000, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x128, .f32⟩
  | .hbm, ⟨98, _⟩ => ⟨S850000x1, .f32⟩
  | .hbm, ⟨99, _⟩ => ⟨S850000x128, .f32⟩
  | .hbm, ⟨100, _⟩ => ⟨S850000x128, .f32⟩
  | .hbm, ⟨101, _⟩ => ⟨S_, .f32⟩
  | .hbm, ⟨102, _⟩ => ⟨S50000x128, .f32⟩
  | .hbm, ⟨103, _⟩ => ⟨S850000x1, .i32⟩
  | .hbm, ⟨104, _⟩ => ⟨S50000x128, .f32⟩
  | .hbm, ⟨105, _⟩ => ⟨S1x128, .f32⟩
  | .hbm, ⟨106, _⟩ => ⟨S50000x128, .f32⟩
  | .hbm, ⟨107, _⟩ => ⟨S50000x128, .f32⟩
  | .hbm, ⟨108, _⟩ => ⟨S_, .f32⟩
  | .hbm, ⟨109, _⟩ => ⟨S50000x128, .f32⟩
  | .hbm, ⟨110, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call2_cst : Ref sig .tc := ⟨.hbm, 108, rfl⟩
abbrev main_call2_v0 : Ref sig .tc := ⟨.hbm, 109, rfl⟩
abbrev main_v80 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.GcnSpec.lean ====
/-
  The mathematics of the two-layer graph convolution both programs compute, stated once over literal shapes and
  without either program: a node-feature array [50000, 128], an edge list [2, 800000] of 32-bit words, two weight
  matrices [128, 128] and two bias rows [128].

  The message list has 850000 entries: the 800000 edges followed by one self loop per node.  `src` and `dst` are its
  endpoint lists (a row of the edge index, then 0 … 49999).  `degree` counts, per node, the messages that arrive
  (a scatter-add of ones along `dst`), `invSqrtDeg` is its inverse square root where the degree is positive and zero
  elsewhere.  One layer multiplies the features by a weight matrix, gathers the product's rows along `src` (a negative
  index wrapped once by the node count, `wrapNeg`), scales row `e` by `invSqrtDeg[src e] · invSqrtDeg[dst e]`,
  scatter-adds the rows along `dst` into a zero array (`aggregate`), adds the bias row to every node and takes the
  maximum with zero.

  The two programs differ only in how a layer's two dense pieces are spelt.  The reference writes the product as a
  host contraction and the closing step as two broadcasts, a sum and a maximum (`addBiasRelu`); the kernel computes
  both per block of 5000 nodes, and what its blocks add up to is stated here per element: `dense`, the sum over the
  128 contracted columns, and `biasRelu`, `max (a[n, j] + b[0, j]) 0` against the bias as a 1 × 128 row.  At the
  extended reals the host contraction IS that sum (`dense_eq`) and the reference's closing step IS `biasRelu` of the
  bias cast to a row (`addBiasRelu_eq`), so the two whole networks are one function (`gcn_eq`).  Nothing here needs
  an input to be finite: no law beyond reading each operation at an index is used.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Gcn

open Idealize.ShloMosaic Idealize.ShloMosaic.ValueIdx

/-! ## Shapes -/

abbrev Feat : Shape := ⟨2, ![50000, 128]⟩
abbrev Wgt : Shape := ⟨2, ![128, 128]⟩
abbrev Bias : Shape := ⟨1, ![128]⟩
abbrev BiasRow : Shape := ⟨2, ![1, 128]⟩
abbrev EdgeIx : Shape := ⟨2, ![2, 800000]⟩
abbrev EdgeRow : Shape := ⟨2, ![1, 800000]⟩
abbrev EdgeVec : Shape := ⟨1, ![800000]⟩
abbrev NodeVec : Shape := ⟨1, ![50000]⟩
abbrev MsgVec : Shape := ⟨1, ![850000]⟩
abbrev MsgCol : Shape := ⟨2, ![850000, 1]⟩
abbrev MsgFeat : Shape := ⟨2, ![850000, 128]⟩
abbrev Sc : Shape := ⟨0, ![]⟩

/-! ## The shape side conditions of the operations below -/

theorem slice_row0 : EdgeIx.Slices ![0, 0] EdgeRow := by decide
theorem slice_row1 : EdgeIx.Slices ![1, 0] EdgeRow := by decide
theorem cast_row : EdgeRow.ShapeCasts EdgeVec := by decide
theorem cat_msgs : Shape.Concatenates [EdgeVec, NodeVec] MsgVec 0 := by decide
theorem bc_sc_msg : Sc.BroadcastsInDim MsgVec (![] : Fin 0 → Fin MsgVec.rank) := by decide
theorem bc_sc_node : Sc.BroadcastsInDim NodeVec (![] : Fin 0 → Fin NodeVec.rank) := by decide
theorem bc_msg_col : MsgVec.BroadcastsInDim MsgCol (![0] : Fin 1 → Fin MsgCol.rank) := by decide
theorem bc_col_feat : MsgCol.BroadcastsInDim MsgFeat (![0, 1] : Fin 2 → Fin MsgFeat.rank) := by decide
theorem bc_sc_feat : Sc.BroadcastsInDim Feat (![] : Fin 0 → Fin Feat.rank) := by decide
theorem bc_bias_row : Bias.BroadcastsInDim BiasRow (![1] : Fin 1 → Fin BiasRow.rank) := by decide
theorem bc_row_feat : BiasRow.BroadcastsInDim Feat (![0, 1] : Fin 2 → Fin Feat.rank) := by decide
theorem cast_bias : Bias.ShapeCasts BiasRow := by decide

/-- A scatter of one scalar per message into a per-node vector. -/
def scatterNode : ScatterDims NodeVec MsgCol MsgVec where
  updateWindowDims := []
  insertedWindowDims := [0]
  scatterDimsToOperandDims := [0]
  indexVectorDim := 1
  wf := by decide
/-- A scatter of one feature row per message into the node-feature array. -/
def scatterFeat : ScatterDims Feat MsgCol MsgFeat where
  updateWindowDims := [1]
  insertedWindowDims := [0]
  scatterDimsToOperandDims := [0]
  indexVectorDim := 1
  wf := by decide
/-- A gather of one scalar per message out of a per-node vector. -/
def gatherNode : GatherDims NodeVec MsgCol MsgVec where
  offsetDims := []
  collapsedSliceDims := [0]
  operandBatchingDims := []
  startIndicesBatchingDims := []
  startIndexMap := [0]
  indexVectorDim := 1
  sliceSizes := ![1]
  wf := by decide
/-- A gather of one feature row per message out of the node-feature array. -/
def gatherFeat : GatherDims Feat MsgCol MsgFeat where
  offsetDims := [1]
  collapsedSliceDims := [0]
  operandBatchingDims := []
  startIndicesBatchingDims := []
  startIndexMap := [0]
  indexVectorDim := 1
  sliceSizes := ![1, 128]
  wf := by decide
/-- Features times a weight matrix: the features' columns against the matrix's rows. -/
def dotFeat : DotDims Feat Wgt Feat where
  lhsContracting := [1]
  rhsContracting := [0]
  lhsNonContracting := [0]
  rhsNonContracting := [1]
  lhsBatch := []
  rhsBatch := []
  wf := by decide

/-! ## The graph side: shared by both programs, for any float family -/

section Graph
variable {F : FTy → Type} [FloatOps F]

/-- One endpoint list of the messages: row `off 0` of the edge index, then the self loops 0 … 49999. -/
def endpoints (off : Fin 2 → Nat) (h : EdgeIx.Slices off EdgeRow) (ei : IVec EdgeIx 32) : IVec MsgVec 32 :=
  concatenate MsgVec 0 [⟨EdgeVec, shapeCast EdgeVec (extractStridedSlice EdgeRow off ei h) cast_row⟩, ⟨NodeVec, iotaInDim NodeVec 32 0⟩] cat_msgs
/-- The messages' sources. -/
def src (ei : IVec EdgeIx 32) : IVec MsgVec 32 := endpoints ![0, 0] slice_row0 ei
/-- The messages' destinations. -/
def dst (ei : IVec EdgeIx 32) : IVec MsgVec 32 := endpoints ![1, 0] slice_row1 ei

/-- A negative index wrapped once by the node count. -/
def wrapNeg (ix : IVec MsgVec 32) : IVec MsgVec 32 :=
  select (cmpi .slt ix (broadcastInDim MsgVec ![] bc_sc_msg (constantI Sc 32 0#32)))
    (addi ix (broadcastInDim MsgVec ![] bc_sc_msg (constantI Sc 32 50000#32))) ix

/-- How many messages arrive at each node. -/
def degree (d : IVec MsgVec 32) : FVec F NodeVec .f32 :=
  Host.scatterAdd scatterNode (broadcastInDim NodeVec ![] bc_sc_node (constant (F := F) Sc .f32 0x00000000#32))
    (broadcastInDim MsgCol ![0] bc_msg_col d) (broadcastInDim MsgVec ![] bc_sc_msg (constant (F := F) Sc .f32 0x3F800000#32))
/-- The degree's inverse square root where it is positive, zero elsewhere. -/
def invSqrtDeg (d : IVec MsgVec 32) : FVec F NodeVec .f32 :=
  select (cmpf (F := F) .ogt (degree d) (broadcastInDim NodeVec ![] bc_sc_node (constant (F := F) Sc .f32 0x00000000#32)))
    (Host.rsqrt (degree (F := F) d)) (broadcastInDim NodeVec ![] bc_sc_node (id (constant (F := F) Sc .f32 0x00000000#32)))

/-- The normalised neighbourhood sum of a feature array `h`: node `n` receives the sum over the messages `e` with
    `dst e = n` of `h[src e, ·] · dis[src e] · dis[dst e]`. -/
def aggregate (h : FVec F Feat .f32) (s d : IVec MsgVec 32) (dis : FVec F NodeVec .f32) : FVec F Feat .f32 :=
  Host.scatterAdd scatterFeat (broadcastInDim Feat ![] bc_sc_feat (constant (F := F) Sc .f32 0x00000000#32))
    (broadcastInDim MsgCol ![0] bc_msg_col d)
    (mulf (Host.gather gatherFeat h (broadcastInDim MsgCol ![0] bc_msg_col (wrapNeg s)))
      (broadcastInDim MsgFeat ![0, 1] bc_col_feat (broadcastInDim MsgCol ![0] bc_msg_col
        (mulf (Host.gather gatherNode dis (broadcastInDim MsgCol ![0] bc_msg_col (wrapNeg s)))
          (Host.gather gatherNode dis (broadcastInDim MsgCol ![0] bc_msg_col (wrapNeg d)))))))

/-- The reference's closing step of a layer: the bias row added to every node, then the maximum with zero. -/
def addBiasRelu (a : FVec F Feat .f32) (b : FVec F Bias .f32) : FVec F Feat .f32 :=
  maximumf (addf a (broadcastInDim Feat ![0, 1] bc_row_feat (broadcastInDim BiasRow ![1] bc_bias_row b)))
    (broadcastInDim Feat ![] bc_sc_feat (constant (F := F) Sc .f32 0x00000000#32))

/-- One layer as the reference spells it. -/
def layerRef (x : FVec F Feat .f32) (w : FVec F Wgt .f32) (b : FVec F Bias .f32) (s d : IVec MsgVec 32) (dis : FVec F NodeVec .f32) :
    FVec F Feat .f32 :=
  addBiasRelu (aggregate (Host.dotGeneral dotFeat none x w) s d dis) b

/-- The two layers as the reference spells them. -/
def gcnRef (x : FVec F Feat .f32) (ei : IVec EdgeIx 32) (w1 : FVec F Wgt .f32) (b1 : FVec F Bias .f32) (w2 : FVec F Wgt .f32)
    (b2 : FVec F Bias .f32) : FVec F Feat .f32 :=
  layerRef (layerRef x w1 b1 (src ei) (dst ei) (invSqrtDeg (dst ei))) w2 b2 (src ei) (dst ei) (invSqrtDeg (dst ei))

end Graph

/-! ## The dense pieces per element, at the extended reals -/

/-- Features times a weight matrix, element by element: the sum over the 128 contracted columns. -/
def dense (x : FVec Ideal Feat .f32) (w : FVec Ideal Wgt .f32) : FVec Ideal Feat .f32 :=
  fun i => ∑ k : Fin 128, x (ix2 (i 0) k) * w (ix2 k (i 1))

/-- `dense` at node `p`, column `q`. -/
theorem dense_apply (x : FVec Ideal Feat .f32) (w : FVec Ideal Wgt .f32) (p : Fin 50000) (q : Fin 128) :
    dense x w (ix2 p q) = ∑ k : Fin 128, x (ix2 p k) * w (ix2 k q) := rfl

/-- A 1 × 128 bias row added to every node, then the maximum with zero. -/
def biasRelu (a : FVec Ideal Feat .f32) (b : FVec Ideal BiasRow .f32) : FVec Ideal Feat .f32 :=
  fun i => max (a i + b (ix2 0 (i 1))) (Ideal.ofBits .f32 0x00000000#32)

/-- `biasRelu` at node `p`, column `q`. -/
theorem biasRelu_apply (a : FVec Ideal Feat .f32) (b : FVec Ideal BiasRow .f32) (p : Fin 50000) (q : Fin 128) :
    biasRelu a b (ix2 p q) = max (a (ix2 p q) + b (ix2 0 q)) (Ideal.ofBits .f32 0x00000000#32) := rfl

/-- One layer as the kernel's blocks add up. -/
def layerKer (x : FVec Ideal Feat .f32) (w : FVec Ideal Wgt .f32) (b : FVec Ideal Bias .f32) (s d : IVec MsgVec 32)
    (dis : FVec Ideal NodeVec .f32) : FVec Ideal Feat .f32 :=
  biasRelu (aggregate (dense x w) s d dis) (shapeCast BiasRow b cast_bias)

/-- The two layers as the kernel's blocks add up. -/
def gcnKer (x : FVec Ideal Feat .f32) (ei : IVec EdgeIx 32) (w1 : FVec Ideal Wgt .f32) (b1 : FVec Ideal Bias .f32)
    (w2 : FVec Ideal Wgt .f32) (b2 : FVec Ideal Bias .f32) : FVec Ideal Feat .f32 :=
  layerKer (layerKer x w1 b1 (src ei) (dst ei) (invSqrtDeg (dst ei))) w2 b2 (src ei) (dst ei) (invSqrtDeg (dst ei))

/-! ### The host contraction is the sum -/

theorem lhs_dotFeat_0 (i : Feat.Idx) (q : dotFeat.contr.Idx) : (dotFeat.lhsIdx i q 0).val = (i 0).val := by
  unfold DotDims.lhsIdx
  rw [dif_neg (show ¬(0 : Fin Feat.rank) ∈ dotFeat.lhsBatch by decide), dif_pos (show (0 : Fin Feat.rank) ∈ dotFeat.lhsNonContracting by decide)]
  rfl
theorem lhs_dotFeat_1 (i : Feat.Idx) (q : dotFeat.contr.Idx) : (dotFeat.lhsIdx i q 1).val = (q ⟨0, by decide⟩).val :=
  dotFeat.lhsIdx_val_of_single rfl i q
theorem rhs_dotFeat_0 (i : Feat.Idx) (q : dotFeat.contr.Idx) : (dotFeat.rhsIdx i q 0).val = (q ⟨0, by decide⟩).val :=
  dotFeat.rhsIdx_val_of_single rfl i q
theorem rhs_dotFeat_1 (i : Feat.Idx) (q : dotFeat.contr.Idx) : (dotFeat.rhsIdx i q 1).val = (i 1).val := by
  unfold DotDims.rhsIdx
  rw [dif_neg (show ¬(1 : Fin Wgt.rank) ∈ dotFeat.rhsBatch by decide), dif_pos (show (1 : Fin Wgt.rank) ∈ dotFeat.rhsNonContracting by decide)]
  rfl

/-- The reference's contraction of the features' columns against the weight's rows is `dense`. -/
theorem dense_eq (x : FVec Ideal Feat .f32) (w : FVec Ideal Wgt .f32) :
    Host.dotGeneral (F := Ideal) dotFeat none x w = dense x w := by
  funext i
  obtain ⟨p, q, rfl⟩ : ∃ (p : Fin 50000) (q : Fin 128), i = ix2 p q := ⟨i 0, i 1, eq_ix2 i⟩
  rw [dense_apply]
  simp only [Host.dotGeneral]
  rw [Ideal.dotGeneral_apply, ← Equiv.sum_comp (ValueIdx.contrEquiv1 dotFeat 128 rfl rfl).symm]
  refine Finset.sum_congr rfl fun k _ => ?_
  have hk := ValueIdx.contrEquiv1_symm_val dotFeat 128 rfl rfl k
  have el : dotFeat.lhsIdx (ix2 p q) ((ValueIdx.contrEquiv1 dotFeat 128 rfl rfl).symm k) = ix2 p k := funext fun a => Fin.ext (by
    match a with
    | ⟨0, _⟩ => exact lhs_dotFeat_0 _ _
    | ⟨1, _⟩ => exact (lhs_dotFeat_1 _ _).trans hk)
  have er : dotFeat.rhsIdx (ix2 p q) ((ValueIdx.contrEquiv1 dotFeat 128 rfl rfl).symm k) = ix2 k q := funext fun a => Fin.ext (by
    match a with
    | ⟨0, _⟩ => exact (rhs_dotFeat_0 _ _).trans hk
    | ⟨1, _⟩ => exact rhs_dotFeat_1 _ _)
  rw [el, er]

/-! ### The reference's closing step is `biasRelu` of the bias as a row -/

/-- A bias cast to a 1 × 128 row reads, in column `j`, the bias's entry `j`. -/
theorem biasRow_apply (b : FVec Ideal Bias .f32) (j : Fin 128) : shapeCast BiasRow b cast_bias (ix2 0 j) = b (ix1 j) :=
  shapeCast_apply b cast_bias (ix2 0 j) (ix1 j) (by
    rw [Shape.rowMajor_val_one, Shape.rowMajor_val_two]
    show j.val = (0 : ℕ) * 128 + j.val
    omega)

theorem addBiasRelu_eq (a : FVec Ideal Feat .f32) (b : FVec Ideal Bias .f32) :
    addBiasRelu (F := Ideal) a b = biasRelu a (shapeCast BiasRow b cast_bias) := by
  funext i
  obtain ⟨p, q, rfl⟩ : ∃ (p : Fin 50000) (q : Fin 128), i = ix2 p q := ⟨i 0, i 1, eq_ix2 i⟩
  rw [biasRelu_apply, biasRow_apply]
  unfold addBiasRelu
  rw [maximumf_apply, addf_apply]
  have e1 : broadcastInDim Feat ![0, 1] bc_row_feat (broadcastInDim BiasRow ![1] bc_bias_row b) (ix2 p q) = b (ix1 q) := by
    rw [broadcastInDim_apply ![0, 1] bc_row_feat _ (ix2 p q) (ix2 (0 : Fin 1) q) (fun a => by
      match a with
      | ⟨0, _⟩ => rfl
      | ⟨1, _⟩ => rfl)]
    exact broadcastInDim_apply ![1] bc_bias_row b (ix2 (0 : Fin 1) q) (ix1 q) (fun a => by
      match a with
      | ⟨0, _⟩ => rfl)
  rw [e1]
  rfl

/-! ### The two networks are one function -/

theorem layer_eq (x : FVec Ideal Feat .f32) (w : FVec Ideal Wgt .f32) (b : FVec Ideal Bias .f32) (s d : IVec MsgVec 32)
    (dis : FVec Ideal NodeVec .f32) : layerRef x w b s d dis = layerKer x w b s d dis := by
  unfold layerRef layerKer
  rw [dense_eq, addBiasRelu_eq]

theorem gcn_eq (x : FVec Ideal Feat .f32) (ei : IVec EdgeIx 32) (w1 : FVec Ideal Wgt .f32) (b1 : FVec Ideal Bias .f32)
    (w2 : FVec Ideal Wgt .f32) (b2 : FVec Ideal Bias .f32) : gcnRef x ei w1 b1 w2 b2 = gcnKer x ei w1 b1 w2 b2 := by
  unfold gcnRef gcnKer
  rw [layer_eq, layer_eq]

end Cert.Gcn

end
-- ==== Proof.DenseRegion0.lean ====
/-
  Region 0 of the kernel's program (the first matrix-product launch), read as a value: for any contents `V` of the
  TensorCore's buffers at the region's entry, the output array ends at `Cert.Gcn.dense` of the two input arrays.
  The grid has ten points; point `t` loads rows `5000 t … 5000 t + 4999` of the feature array and the whole 128 × 128
  weight matrix, multiplies them into a zero accumulator (the change of float format before the product is the identity at
  the extended reals) and writes the block back to the same rows of the output.  An entry of a written block is the sum
  over the 128 contracted columns of block entry times weight entry, which is that entry of the whole product: each
  written block is a block of ONE whole-array function, and the ten blocks tile the 50000 rows.
-/
import proofs.«169589_j67164698575202_1_alg».proof.Proof.Gen.KernelIdeal.Frame
import proofs.«169589_j67164698575202_1_alg».proof.Proof.GcnSpec

set_option maxRecDepth 16384

noncomputable section

namespace Cert.KernelIdeal.DenseRegion0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## The block product's operand indices, axis by axis -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at row `p`, column `q` of a block: the sum over the contracted columns `k` of the loaded
    block's entry `(p, k)` times the weight's entry `(k, q)`. -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  try rw [shapeCast_self]
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]
  rfl

/-- A block whose rows are rows `r · 5000 …` of `A`, with the whole weight matrix beside it, is stored as those rows of
    `dense A B`. -/
theorem point_eq (A : FVec Ideal Feat .f32) (B : FVec Ideal Wgt .f32) (x0 : Vec Ideal S5000x128 .f32) (x1 : Vec Ideal S128x128 .f32)
    (r : Nat) (hr : r < 10)
    (h0 : ∀ (p : Fin 5000) (k : Fin 128), x0 (ix2 p k) = A (ix2 ⟨r * 5000 + p.val, by omega⟩ k))
    (h1 : ∀ (k q : Fin 128), x1 (ix2 k q) = B (ix2 k q)) (p : Fin 5000) (q : Fin 128) :
    k0_pay1 x0 x1 (ix2 p q) = dense A B (ix2 ⟨r * 5000 + p.val, by omega⟩ q) := by
  rw [pay_apply, dense_apply]
  exact Finset.sum_congr rfl fun k _ => by rw [h0, h1]

/-- The printed index maps over the ten points: the feature windows move one block of rows per point, the weight matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `dense` of the two arrays the region is entered with. -/
theorem flushed_eq (c : Dev nD) (t : Fin cfg0.N) :
    (dat0 V c).flushed 2 t = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx_facts t
  have ht : t.val < 10 := N_0 ▸ t.isLt
  funext j
  have hj : (win0 2).xinj (grid0.coords t) j = ix2 (⟨(j 0).val, (j 0).isLt⟩ : Fin 5000) (⟨(j 1).val, (j 1).isLt⟩ : Fin 128) :=
    funext fun a => by
      match a with
      | ⟨0, _⟩ => rfl
      | ⟨1, _⟩ => rfl
  refine (congrArg (k0_pay1 (iblk0 V c 0 t) (iblk0 V c 1 t)) hj).trans ?_
  refine (point_eq (V c main_arg0) (V c main_arg2) (iblk0 V c 0 t) (iblk0 V c 1 t) t.val ht ?_ ?_ _ _).trans ?_
  · intro p k
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k q
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show dense (V c main_arg0) (V c main_arg2) _ = dense (V c main_arg0) (V c main_arg2) (((cfg0.win 2).blk t).view.emb j)
    refine congrArg (dense (V c main_arg0) (V c main_arg2)) (funext fun a => Fin.ext ?_)
    match a with
    | ⟨0, _⟩ => show t.val * 5000 + (j 0).val = win0_2.index t (0 : Fin 2) * 5000 + 1 * (j 0).val; omega
    | ⟨1, _⟩ => show (j 1).val = win0_2.index t (1 : Fin 2) * 128 + 1 * (j 1).val; omega

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v15).slice (win0_2.rect t)).set ↔ _
  rw [View.set_slice_whole, Rect.mem_set_unit]
  exact Iff.rfl

/-- Node row `r` lies in the block of point `r / 5000`. -/
theorem mem_of_div (i : S50000x128.Idx) (t : Fin cfg0.N) (ht : t.val = (i 0).val / 5000) : i ∈ ((cfg0.win 2).blk t).view.set := by
  obtain ⟨-, -, -, -, e20, e21⟩ := idx_facts t
  have hi1 : (i 1).val < 128 := (i 1).isLt
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The ten blocks tile the array. -/
theorem cover (i : S50000x128.Idx) : ∃ t : Fin cfg0.N, (cfg0.win 2).flush t = true ∧ i ∈ ((cfg0.win 2).blk t).view.set := by
  have hi0 : (i 0).val < 50000 := (i 0).isLt
  have hN : cfg0.N = 10 := N_0
  exact ⟨⟨(i 0).val / 5000, by rw [hN]; omega⟩, flush0_2 _, mem_of_div i _ rfl⟩

/-- THE REGION'S VALUE: entered with the arrays `V`, it leaves in its output array `dense` of its two input arrays. -/
theorem value (c : Dev nD) : (dat0 V c).arrAt 2 cfg0.N = dense (V c main_arg0) (V c main_arg2) :=
  (dat0 V c).arrAt_eq_of_cover 2 (dense (V c main_arg0) (V c main_arg2)) (fun t _ => flushed_eq V c t) cover

end Cert.KernelIdeal.DenseRegion0

end
-- ==== Proof.BiasRegion1.lean ====
/-
  Region 1 of the kernel's program (the first bias-and-rectifier launch), read as a value: for any contents `V` of the
  TensorCore's buffers at the region's entry, the output array ends at `Cert.Gcn.biasRelu` of the two input arrays.
  The grid has ten points; point `t` loads rows `5000 t … 5000 t + 4999` of the feature array and the whole 1 × 128
  bias row, stores `max (x + b) 0` and writes the block back to the same rows of the output.  So each written block
  is that block of ONE whole-array function, and the ten blocks tile the 50000 rows.
-/
import proofs.«169589_j67164698575202_1_alg».proof.Proof.Gen.KernelIdeal.Frame
import proofs.«169589_j67164698575202_1_alg».proof.Proof.GcnSpec

set_option maxRecDepth 16384

noncomputable section

namespace Cert.KernelIdeal.BiasRegion1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `p`, column `q` of a block: the loaded block's entry plus the bias row's entry in that
    column, against zero. -/
theorem pay_apply (x0 : Vec Ideal S5000x128 .f32) (x1 : Vec Ideal S1x128 .f32) (p : Fin 5000) (q : Fin 128) :
    k1_pay1 x0 x1 (ix2 p q) = max (x0 (ix2 p q) + x1 (ix2 0 q)) (Ideal.ofBits .f32 0x00000000#32) := by
  unfold k1_pay1
  rw [maximumf_apply, addf_apply, shapeCast_self, shapeCast_self]
  rw [broadcastTo_apply x1 _ (ix2 p q) (ix2 (0 : Fin 1) q) (fun a => by
    match a with
    | ⟨0, _⟩ => rfl
    | ⟨1, _⟩ => rfl)]
  rfl

/-- A block whose rows are rows `r · 5000 …` of `A`, with the whole bias row beside it, is stored as those rows of
    `biasRelu A B`. -/
theorem point_eq (A : FVec Ideal Feat .f32) (B : FVec Ideal BiasRow .f32) (x0 : Vec Ideal S5000x128 .f32) (x1 : Vec Ideal S1x128 .f32)
    (r : Nat) (hr : r < 10)
    (h0 : ∀ (p : Fin 5000) (q : Fin 128), x0 (ix2 p q) = A (ix2 ⟨r * 5000 + p.val, by omega⟩ q))
    (h1 : ∀ q : Fin 128, x1 (ix2 0 q) = B (ix2 0 q)) (p : Fin 5000) (q : Fin 128) :
    k1_pay1 x0 x1 (ix2 p q) = biasRelu A B (ix2 ⟨r * 5000 + p.val, by omega⟩ q) := by
  rw [pay_apply, biasRelu_apply, h0, h1]

/-- The printed index maps over the ten points: the feature windows move one block of rows per point, the bias row stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `biasRelu` of the two arrays the region is entered with. -/
theorem flushed_eq (c : Dev nD) (t : Fin cfg1.N) :
    (dat1 V c).flushed 2 t = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e00, e01, e10, e11, e20, e21⟩ := idx_facts t
  have ht : t.val < 10 := N_1 ▸ t.isLt
  funext j
  have hj : (win1 2).xinj (grid1.coords t) j = ix2 (⟨(j 0).val, (j 0).isLt⟩ : Fin 5000) (⟨(j 1).val, (j 1).isLt⟩ : Fin 128) :=
    funext fun a => by
      match a with
      | ⟨0, _⟩ => rfl
      | ⟨1, _⟩ => rfl
  refine (congrArg (k1_pay1 (iblk1 V c 0 t) (iblk1 V c 1 t)) hj).trans ?_
  refine (point_eq (V c main_v43) (V c main_v44) (iblk1 V c 0 t) (iblk1 V c 1 t) t.val ht ?_ ?_ _ _).trans ?_
  · intro p q
    show V c main_v43 (((cfg1.win 0).blk t).view.emb (ix2 p q)) = _
    refine congrArg (V c main_v43) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * q.val = q.val; omega
  · intro q
    show V c main_v44 (((cfg1.win 1).blk t).view.emb (ix2 0 q)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · show biasRelu (V c main_v43) (V c main_v44) _ = biasRelu (V c main_v43) (V c main_v44) (((cfg1.win 2).blk t).view.emb j)
    refine congrArg (biasRelu (V c main_v43) (V c main_v44)) (funext fun a => Fin.ext ?_)
    match a with
    | ⟨0, _⟩ => show t.val * 5000 + (j 0).val = win1_2.index t (0 : Fin 2) * 5000 + 1 * (j 0).val; omega
    | ⟨1, _⟩ => show (j 1).val = win1_2.index t (1 : Fin 2) * 128 + 1 * (j 1).val; omega

/-- An index of the array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Node row `r` lies in the block of point `r / 5000`. -/
theorem mem_of_div (i : S50000x128.Idx) (t : Fin cfg1.N) (ht : t.val = (i 0).val / 5000) : i ∈ ((cfg1.win 2).blk t).view.set := by
  obtain ⟨-, -, -, -, e20, e21⟩ := idx_facts t
  have hi1 : (i 1).val < 128 := (i 1).isLt
  rw [mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- The ten blocks tile the array. -/
theorem cover (i : S50000x128.Idx) : ∃ t : Fin cfg1.N, (cfg1.win 2).flush t = true ∧ i ∈ ((cfg1.win 2).blk t).view.set := by
  have hi0 : (i 0).val < 50000 := (i 0).isLt
  have hN : cfg1.N = 10 := N_1
  exact ⟨⟨(i 0).val / 5000, by rw [hN]; omega⟩, flush1_2 _, mem_of_div i _ rfl⟩

/-- THE REGION'S VALUE: entered with the arrays `V`, it leaves in its output array `biasRelu` of its two input arrays. -/
theorem value (c : Dev nD) : (dat1 V c).arrAt 2 cfg1.N = biasRelu (V c main_v43) (V c main_v44) :=
  (dat1 V c).arrAt_eq_of_cover 2 (biasRelu (V c main_v43) (V c main_v44)) (fun t _ => flushed_eq V c t) cover

end Cert.KernelIdeal.BiasRegion1

end
-- ==== Proof.DenseRegion2.lean ====
/-
  Region 2 of the kernel's program (the second matrix-product launch), read as a value: for any contents `V` of the
  TensorCore's buffers at the region's entry, the output array ends at `Cert.Gcn.dense` of the two input arrays.
  The grid has ten points; point `t` loads rows `5000 t … 5000 t + 4999` of the feature array and the whole 128 × 128
  weight matrix, multiplies them into a zero accumulator (the change of float format before the product is the identity at
  the extended reals) and writes the block back to the same rows of the output.  An entry of a written block is the sum
  over the 128 contracted columns of block entry times weight entry, which is that entry of the whole product: each
  written block is a block of ONE whole-array function, and the ten blocks tile the 50000 rows.
-/
import proofs.«169589_j67164698575202_1_alg».proof.Proof.Gen.KernelIdeal.Frame
import proofs.«169589_j67164698575202_1_alg».proof.Proof.GcnSpec

set_option maxRecDepth 16384

noncomputable section

namespace Cert.KernelIdeal.DenseRegion2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## The block product's operand indices, axis by axis -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at row `p`, column `q` of a block: the sum over the contracted columns `k` of the loaded
    block's entry `(p, k)` times the weight's entry `(k, q)`. -/
theorem pay_apply (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  try rw [shapeCast_self]
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]
  rfl

/-- A block whose rows are rows `r · 5000 …` of `A`, with the whole weight matrix beside it, is stored as those rows of
    `dense A B`. -/
theorem point_eq (A : FVec Ideal Feat .f32) (B : FVec Ideal Wgt .f32) (x0 : Vec Ideal S5000x128 .f32) (x1 : Vec Ideal S128x128 .f32)
    (r : Nat) (hr : r < 10)
    (h0 : ∀ (p : Fin 5000) (k : Fin 128), x0 (ix2 p k) = A (ix2 ⟨r * 5000 + p.val, by omega⟩ k))
    (h1 : ∀ (k q : Fin 128), x1 (ix2 k q) = B (ix2 k q)) (p : Fin 5000) (q : Fin 128) :
    k2_pay1 x0 x1 (ix2 p q) = dense A B (ix2 ⟨r * 5000 + p.val, by omega⟩ q) := by
  rw [pay_apply, dense_apply]
  exact Finset.sum_congr rfl fun k _ => by rw [h0, h1]

/-- The printed index maps over the ten points: the feature windows move one block of rows per point, the weight matrix stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `dense` of the two arrays the region is entered with. -/
theorem flushed_eq (c : Dev nD) (t : Fin cfg2.N) :
    (dat2 V c).flushed 2 t = ((cfg2.win 2).blk t).view.read (Elt Ideal) (dense (V c main_v45) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e00, e01, e10, e11, e20, e21⟩ := idx_facts t
  have ht : t.val < 10 := N_2 ▸ t.isLt
  funext j
  have hj : (win2 2).xinj (grid2.coords t) j = ix2 (⟨(j 0).val, (j 0).isLt⟩ : Fin 5000) (⟨(j 1).val, (j 1).isLt⟩ : Fin 128) :=
    funext fun a => by
      match a with
      | ⟨0, _⟩ => rfl
      | ⟨1, _⟩ => rfl
  refine (congrArg (k2_pay1 (iblk2 V c 0 t) (iblk2 V c 1 t)) hj).trans ?_
  refine (point_eq (V c main_v45) (V c main_arg4) (iblk2 V c 0 t) (iblk2 V c 1 t) t.val ht ?_ ?_ _ _).trans ?_
  · intro p k
    show V c main_v45 (((cfg2.win 0).blk t).view.emb (ix2 p k)) = _
    refine congrArg (V c main_v45) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · intro k q
    show V c main_arg4 (((cfg2.win 1).blk t).view.emb (ix2 k q)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  · show dense (V c main_v45) (V c main_arg4) _ = dense (V c main_v45) (V c main_arg4) (((cfg2.win 2).blk t).view.emb j)
    refine congrArg (dense (V c main_v45) (V c main_arg4)) (funext fun a => Fin.ext ?_)
    match a with
    | ⟨0, _⟩ => show t.val * 5000 + (j 0).val = win2_2.index t (0 : Fin 2) * 5000 + 1 * (j 0).val; omega
    | ⟨1, _⟩ => show (j 1).val = win2_2.index t (1 : Fin 2) * 128 + 1 * (j 1).val; omega

/-- An index of the array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Node row `r` lies in the block of point `r / 5000`. -/
theorem mem_of_div (i : S50000x128.Idx) (t : Fin cfg2.N) (ht : t.val = (i 0).val / 5000) : i ∈ ((cfg2.win 2).blk t).view.set := by
  obtain ⟨-, -, -, -, e20, e21⟩ := idx_facts t
  have hi1 : (i 1).val < 128 := (i 1).isLt
  rw [mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- The ten blocks tile the array. -/
theorem cover (i : S50000x128.Idx) : ∃ t : Fin cfg2.N, (cfg2.win 2).flush t = true ∧ i ∈ ((cfg2.win 2).blk t).view.set := by
  have hi0 : (i 0).val < 50000 := (i 0).isLt
  have hN : cfg2.N = 10 := N_2
  exact ⟨⟨(i 0).val / 5000, by rw [hN]; omega⟩, flush2_2 _, mem_of_div i _ rfl⟩

/-- THE REGION'S VALUE: entered with the arrays `V`, it leaves in its output array `dense` of its two input arrays. -/
theorem value (c : Dev nD) : (dat2 V c).arrAt 2 cfg2.N = dense (V c main_v45) (V c main_arg4) :=
  (dat2 V c).arrAt_eq_of_cover 2 (dense (V c main_v45) (V c main_arg4)) (fun t _ => flushed_eq V c t) cover

end Cert.KernelIdeal.DenseRegion2

end
-- ==== Proof.BiasRegion3.lean ====
/-
  Region 3 of the kernel's program (the second bias-and-rectifier launch), read as a value: for any contents `V` of the
  TensorCore's buffers at the region's entry, the output array ends at `Cert.Gcn.biasRelu` of the two input arrays.
  The grid has ten points; point `t` loads rows `5000 t … 5000 t + 4999` of the feature array and the whole 1 × 128
  bias row, stores `max (x + b) 0` and writes the block back to the same rows of the output.  So each written block
  is that block of ONE whole-array function, and the ten blocks tile the 50000 rows.
-/
import proofs.«169589_j67164698575202_1_alg».proof.Proof.Gen.KernelIdeal.Frame
import proofs.«169589_j67164698575202_1_alg».proof.Proof.GcnSpec

set_option maxRecDepth 16384

noncomputable section

namespace Cert.KernelIdeal.BiasRegion3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `p`, column `q` of a block: the loaded block's entry plus the bias row's entry in that
    column, against zero. -/
theorem pay_apply (x0 : Vec Ideal S5000x128 .f32) (x1 : Vec Ideal S1x128 .f32) (p : Fin 5000) (q : Fin 128) :
    k3_pay1 x0 x1 (ix2 p q) = max (x0 (ix2 p q) + x1 (ix2 0 q)) (Ideal.ofBits .f32 0x00000000#32) := by
  unfold k3_pay1
  rw [maximumf_apply, addf_apply, shapeCast_self, shapeCast_self]
  rw [broadcastTo_apply x1 _ (ix2 p q) (ix2 (0 : Fin 1) q) (fun a => by
    match a with
    | ⟨0, _⟩ => rfl
    | ⟨1, _⟩ => rfl)]
  rfl

/-- A block whose rows are rows `r · 5000 …` of `A`, with the whole bias row beside it, is stored as those rows of
    `biasRelu A B`. -/
theorem point_eq (A : FVec Ideal Feat .f32) (B : FVec Ideal BiasRow .f32) (x0 : Vec Ideal S5000x128 .f32) (x1 : Vec Ideal S1x128 .f32)
    (r : Nat) (hr : r < 10)
    (h0 : ∀ (p : Fin 5000) (q : Fin 128), x0 (ix2 p q) = A (ix2 ⟨r * 5000 + p.val, by omega⟩ q))
    (h1 : ∀ q : Fin 128, x1 (ix2 0 q) = B (ix2 0 q)) (p : Fin 5000) (q : Fin 128) :
    k3_pay1 x0 x1 (ix2 p q) = biasRelu A B (ix2 ⟨r * 5000 + p.val, by omega⟩ q) := by
  rw [pay_apply, biasRelu_apply, h0, h1]

/-- The printed index maps over the ten points: the feature windows move one block of rows per point, the bias row stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `biasRelu` of the two arrays the region is entered with. -/
theorem flushed_eq (c : Dev nD) (t : Fin cfg3.N) :
    (dat3 V c).flushed 2 t = ((cfg3.win 2).blk t).view.read (Elt Ideal) (biasRelu (V c main_v74) (V c main_v75)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e00, e01, e10, e11, e20, e21⟩ := idx_facts t
  have ht : t.val < 10 := N_3 ▸ t.isLt
  funext j
  have hj : (win3 2).xinj (grid3.coords t) j = ix2 (⟨(j 0).val, (j 0).isLt⟩ : Fin 5000) (⟨(j 1).val, (j 1).isLt⟩ : Fin 128) :=
    funext fun a => by
      match a with
      | ⟨0, _⟩ => rfl
      | ⟨1, _⟩ => rfl
  refine (congrArg (k3_pay1 (iblk3 V c 0 t) (iblk3 V c 1 t)) hj).trans ?_
  refine (point_eq (V c main_v74) (V c main_v75) (iblk3 V c 0 t) (iblk3 V c 1 t) t.val ht ?_ ?_ _ _).trans ?_
  · intro p q
    show V c main_v74 (((cfg3.win 0).blk t).view.emb (ix2 p q)) = _
    refine congrArg (V c main_v74) (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * q.val = q.val; omega
  · intro q
    show V c main_v75 (((cfg3.win 1).blk t).view.emb (ix2 0 q)) = _
    refine congrArg (V c main_v75) (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  · show biasRelu (V c main_v74) (V c main_v75) _ = biasRelu (V c main_v74) (V c main_v75) (((cfg3.win 2).blk t).view.emb j)
    refine congrArg (biasRelu (V c main_v74) (V c main_v75)) (funext fun a => Fin.ext ?_)
    match a with
    | ⟨0, _⟩ => show t.val * 5000 + (j 0).val = win3_2.index t (0 : Fin 2) * 5000 + 1 * (j 0).val; omega
    | ⟨1, _⟩ => show (j 1).val = win3_2.index t (1 : Fin 2) * 128 + 1 * (j 1).val; omega

/-- An index of the array is in point `t`'s block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v76).slice (win3_2.rect t)).set ↔ _
  rw [View.set_slice_whole, Rect.mem_set_unit]
  exact Iff.rfl

/-- Node row `r` lies in the block of point `r / 5000`. -/
theorem mem_of_div (i : S50000x128.Idx) (t : Fin cfg3.N) (ht : t.val = (i 0).val / 5000) : i ∈ ((cfg3.win 2).blk t).view.set := by
  obtain ⟨-, -, -, -, e20, e21⟩ := idx_facts t
  have hi1 : (i 1).val < 128 := (i 1).isLt
  rw [mem_blk]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- The ten blocks tile the array. -/
theorem cover (i : S50000x128.Idx) : ∃ t : Fin cfg3.N, (cfg3.win 2).flush t = true ∧ i ∈ ((cfg3.win 2).blk t).view.set := by
  have hi0 : (i 0).val < 50000 := (i 0).isLt
  have hN : cfg3.N = 10 := N_3
  exact ⟨⟨(i 0).val / 5000, by rw [hN]; omega⟩, flush3_2 _, mem_of_div i _ rfl⟩

/-- THE REGION'S VALUE: entered with the arrays `V`, it leaves in its output array `biasRelu` of its two input arrays. -/
theorem value (c : Dev nD) : (dat3 V c).arrAt 2 cfg3.N = biasRelu (V c main_v74) (V c main_v75) :=
  (dat3 V c).arrAt_eq_of_cover 2 (biasRelu (V c main_v74) (V c main_v75)) (fun t _ => flushed_eq V c t) cover

end Cert.KernelIdeal.BiasRegion3

end
-- ==== Proof.HostChain.lean ====
/-
  The host stretches of the kernel's program between its four launches, read as values: for any contents `W` of the
  TensorCore's buffers when a stretch begins, what it leaves in the buffers the launches read, in the vocabulary of
  `Cert.Gcn` — the message endpoints and the inverse square-root degrees before the first launch, the normalised
  neighbourhood sum of a launch's product and the bias cast to a row before each bias launch — and the buffers it does not
  write (the arguments, the endpoint lists, the degrees), unchanged.  Stated for any float family.
-/
import proofs.«169589_j67164698575202_1_alg».proof.Proof.Gen.KernelIdeal.Launch
import proofs.«169589_j67164698575202_1_alg».proof.Proof.GcnSpec
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.ShloMosaic.StableHlo Idealize.SL.Sem
open Cert.Gcn

variable {F : FTy → Type} [FloatOps F]
variable (W : Valuation τ sig (Elt F))

/-! ## Before the first launch: the graph side -/

theorem pre_src : after hostOps0_1 (after hostOps0 W) (Proc.devRef .tc main_v3) = src (W (Proc.devRef .tc main_arg1)) := by
  after_results
  rfl
theorem pre_dst : after hostOps0_1 (after hostOps0 W) (Proc.devRef .tc main_v6) = dst (W (Proc.devRef .tc main_arg1)) := by
  after_results
  rfl
theorem pre_dis : after hostOps0_1 (after hostOps0 W) (Proc.devRef .tc main_v14) = invSqrtDeg (F := F) (dst (W (Proc.devRef .tc main_arg1))) := by
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rfl
theorem pre_arg0 : after hostOps0_1 (after hostOps0 W) (Proc.devRef .tc main_arg0) = W (Proc.devRef .tc main_arg0) := by
  after_results
theorem pre_arg2 : after hostOps0_1 (after hostOps0 W) (Proc.devRef .tc main_arg2) = W (Proc.devRef .tc main_arg2) := by
  after_results
theorem pre_arg3 : after hostOps0_1 (after hostOps0 W) (Proc.devRef .tc main_arg3) = W (Proc.devRef .tc main_arg3) := by
  after_results
theorem pre_arg4 : after hostOps0_1 (after hostOps0 W) (Proc.devRef .tc main_arg4) = W (Proc.devRef .tc main_arg4) := by
  after_results
theorem pre_arg5 : after hostOps0_1 (after hostOps0 W) (Proc.devRef .tc main_arg5) = W (Proc.devRef .tc main_arg5) := by
  after_results

/-! ## Between the first product and the first bias launch -/

theorem mid1_agg : after hostOps1 W (Proc.devRef .tc main_v43)
    = aggregate (W (Proc.devRef .tc main_v15)) (W (Proc.devRef .tc main_v3)) (W (Proc.devRef .tc main_v6)) (W (Proc.devRef .tc main_v14)) := by
  after_results_simp
  rfl
theorem mid1_bias : after hostOps1 W (Proc.devRef .tc main_v44) = shapeCast BiasRow (W (Proc.devRef .tc main_arg3)) cast_bias := by
  after_results_simp
  rfl
theorem mid1_v3 : after hostOps1 W (Proc.devRef .tc main_v3) = W (Proc.devRef .tc main_v3) := by after_results_simp
theorem mid1_v6 : after hostOps1 W (Proc.devRef .tc main_v6) = W (Proc.devRef .tc main_v6) := by after_results_simp
theorem mid1_v14 : after hostOps1 W (Proc.devRef .tc main_v14) = W (Proc.devRef .tc main_v14) := by after_results_simp
theorem mid1_arg4 : after hostOps1 W (Proc.devRef .tc main_arg4) = W (Proc.devRef .tc main_arg4) := by after_results_simp
theorem mid1_arg5 : after hostOps1 W (Proc.devRef .tc main_arg5) = W (Proc.devRef .tc main_arg5) := by after_results_simp

/-! ## Between the second product and the second bias launch -/

theorem mid3_agg : after hostOps3 W (Proc.devRef .tc main_v74)
    = aggregate (W (Proc.devRef .tc main_v46)) (W (Proc.devRef .tc main_v3)) (W (Proc.devRef .tc main_v6)) (W (Proc.devRef .tc main_v14)) := by
  after_results_simp
  rfl
theorem mid3_bias : after hostOps3 W (Proc.devRef .tc main_v75) = shapeCast BiasRow (W (Proc.devRef .tc main_arg5)) cast_bias := by
  after_results_simp
  rfl

end Cert.KernelIdeal.HostChain

end
-- ==== Proof.KernelValue.lean ====
/-
  The kernel program's result as one function of its arguments.  The frame's run names the buffer contents at each
  boundary between a host stretch and a launch (`Gen.W2` … `Gen.W8`); here each buffer a later item reads is followed
  boundary by boundary.  The endpoint lists, the inverse square-root degrees and the arguments are written once (or never)
  and then only carried: a launch changes its three arrays and nothing else, a stretch the buffers its operations name.
  The first product is `dense` of the features and the first weight; the stretch after it forms its normalised
  neighbourhood sum and casts the first bias to a row; the first bias launch leaves `biasRelu` of the two; the second
  product, stretch and bias launch repeat this on the first layer's output with the second weight and bias.  At the
  last boundary the result buffer holds `Cert.Gcn.gcnKer` of the six arguments.
-/
import proofs.«169589_j67164698575202_1_alg».proof.Proof.KernelRun
import proofs.«169589_j67164698575202_1_alg».proof.Proof.DenseRegion0
import proofs.«169589_j67164698575202_1_alg».proof.Proof.BiasRegion1
import proofs.«169589_j67164698575202_1_alg».proof.Proof.DenseRegion2
import proofs.«169589_j67164698575202_1_alg».proof.Proof.BiasRegion3
import proofs.«169589_j67164698575202_1_alg».proof.Proof.HostChain

set_option maxRecDepth 16384

noncomputable section

namespace Cert.KernelIdeal.GcnValue

open Cert.KernelIdeal Cert.KernelIdeal.Gen
open Idealize.ShloMosaic Idealize.ShloMosaic.TcCoe Idealize.ShloMosaic.StableHlo Idealize.SL.Sem
open Cert.Gcn

variable (m : (ℓ : Loc nD τ sig) → Buf (Elt Ideal) ℓ) (ρ : Dev nD → PrngReg)

theorem aggregate_congr {h h' : FVec Ideal Feat .f32} {s s' d d' : IVec MsgVec 32} {dis dis' : FVec Ideal NodeVec .f32}
    (e1 : h = h') (e2 : s = s') (e3 : d = d') (e4 : dis = dis') : aggregate h s d dis = aggregate h' s' d' dis' := by
  subst e1 e2 e3 e4; rfl

/-! ## The messages' sources, carried to the second stretch -/

theorem W2_v3 (c : Dev nD) : W2 m ρ c (Proc.devRef .tc main_v3) = src (m ((c : Thread nD τ).loc main_arg1)) :=
  HostChain.pre_src (W0 m ρ c)
theorem W3_v3 (c : Dev nD) : W3 m ρ c (Proc.devRef .tc main_v3) = src (m ((c : Thread nD τ).loc main_arg1)) :=
  (W3_of_ne m ρ c main_v3 (by decide)).trans (W2_v3 m ρ c)
theorem W4_v3 (c : Dev nD) : W4 m ρ c (Proc.devRef .tc main_v3) = src (m ((c : Thread nD τ).loc main_arg1)) :=
  (HostChain.mid1_v3 (W3 m ρ c)).trans (W3_v3 m ρ c)
theorem W5_v3 (c : Dev nD) : W5 m ρ c (Proc.devRef .tc main_v3) = src (m ((c : Thread nD τ).loc main_arg1)) :=
  (W5_of_ne m ρ c main_v3 (by decide)).trans (W4_v3 m ρ c)
theorem W6_v3 (c : Dev nD) : W6 m ρ c (Proc.devRef .tc main_v3) = src (m ((c : Thread nD τ).loc main_arg1)) :=
  (W6_of_ne m ρ c main_v3 (by decide)).trans (W5_v3 m ρ c)

/-! ## The messages' destinations -/

theorem W2_v6 (c : Dev nD) : W2 m ρ c (Proc.devRef .tc main_v6) = dst (m ((c : Thread nD τ).loc main_arg1)) :=
  HostChain.pre_dst (W0 m ρ c)
theorem W3_v6 (c : Dev nD) : W3 m ρ c (Proc.devRef .tc main_v6) = dst (m ((c : Thread nD τ).loc main_arg1)) :=
  (W3_of_ne m ρ c main_v6 (by decide)).trans (W2_v6 m ρ c)
theorem W4_v6 (c : Dev nD) : W4 m ρ c (Proc.devRef .tc main_v6) = dst (m ((c : Thread nD τ).loc main_arg1)) :=
  (HostChain.mid1_v6 (W3 m ρ c)).trans (W3_v6 m ρ c)
theorem W5_v6 (c : Dev nD) : W5 m ρ c (Proc.devRef .tc main_v6) = dst (m ((c : Thread nD τ).loc main_arg1)) :=
  (W5_of_ne m ρ c main_v6 (by decide)).trans (W4_v6 m ρ c)
theorem W6_v6 (c : Dev nD) : W6 m ρ c (Proc.devRef .tc main_v6) = dst (m ((c : Thread nD τ).loc main_arg1)) :=
  (W6_of_ne m ρ c main_v6 (by decide)).trans (W5_v6 m ρ c)

/-! ## The inverse square-root degrees -/

theorem W2_v14 (c : Dev nD) : W2 m ρ c (Proc.devRef .tc main_v14) = invSqrtDeg (F := Ideal) (dst (m ((c : Thread nD τ).loc main_arg1))) :=
  HostChain.pre_dis (W0 m ρ c)
theorem W3_v14 (c : Dev nD) : W3 m ρ c (Proc.devRef .tc main_v14) = invSqrtDeg (F := Ideal) (dst (m ((c : Thread nD τ).loc main_arg1))) :=
  (W3_of_ne m ρ c main_v14 (by decide)).trans (W2_v14 m ρ c)
theorem W4_v14 (c : Dev nD) : W4 m ρ c (Proc.devRef .tc main_v14) = invSqrtDeg (F := Ideal) (dst (m ((c : Thread nD τ).loc main_arg1))) :=
  (HostChain.mid1_v14 (W3 m ρ c)).trans (W3_v14 m ρ c)
theorem W5_v14 (c : Dev nD) : W5 m ρ c (Proc.devRef .tc main_v14) = invSqrtDeg (F := Ideal) (dst (m ((c : Thread nD τ).loc main_arg1))) :=
  (W5_of_ne m ρ c main_v14 (by decide)).trans (W4_v14 m ρ c)
theorem W6_v14 (c : Dev nD) : W6 m ρ c (Proc.devRef .tc main_v14) = invSqrtDeg (F := Ideal) (dst (m ((c : Thread nD τ).loc main_arg1))) :=
  (W6_of_ne m ρ c main_v14 (by decide)).trans (W5_v14 m ρ c)

/-! ## The arguments the launches and the later stretches read -/

theorem W2_arg0 (c : Dev nD) : W2 m ρ c (Proc.devRef .tc main_arg0) = m ((c : Thread nD τ).loc main_arg0) := HostChain.pre_arg0 (W0 m ρ c)
theorem W2_arg2 (c : Dev nD) : W2 m ρ c (Proc.devRef .tc main_arg2) = m ((c : Thread nD τ).loc main_arg2) := HostChain.pre_arg2 (W0 m ρ c)
theorem W3_arg3 (c : Dev nD) : W3 m ρ c (Proc.devRef .tc main_arg3) = m ((c : Thread nD τ).loc main_arg3) :=
  (W3_of_ne m ρ c main_arg3 (by decide)).trans (HostChain.pre_arg3 (W0 m ρ c))
theorem W5_arg4 (c : Dev nD) : W5 m ρ c (Proc.devRef .tc main_arg4) = m ((c : Thread nD τ).loc main_arg4) :=
  (W5_of_ne m ρ c main_arg4 (by decide)).trans ((HostChain.mid1_arg4 (W3 m ρ c)).trans
    ((W3_of_ne m ρ c main_arg4 (by decide)).trans (HostChain.pre_arg4 (W0 m ρ c))))
theorem W6_arg5 (c : Dev nD) : W6 m ρ c (Proc.devRef .tc main_arg5) = m ((c : Thread nD τ).loc main_arg5) :=
  (W6_of_ne m ρ c main_arg5 (by decide)).trans ((W5_of_ne m ρ c main_arg5 (by decide)).trans ((HostChain.mid1_arg5 (W3 m ρ c)).trans
    ((W3_of_ne m ρ c main_arg5 (by decide)).trans (HostChain.pre_arg5 (W0 m ρ c)))))

/-! ## The first layer -/

/-- After the first product launch its output holds the features times the first weight. -/
theorem W3_v15 (c : Dev nD) : W3 m ρ c (Proc.devRef .tc main_v15)
    = dense (m ((c : Thread nD τ).loc main_arg0)) (m ((c : Thread nD τ).loc main_arg2)) :=
  (W3_arr m ρ c 2).trans ((DenseRegion0.value (V2 m ρ) c).trans (congrArg₂ dense (W2_arg0 m ρ c) (W2_arg2 m ρ c)))

/-- The stretch after it leaves the product's normalised neighbourhood sum … -/
theorem W4_v43 (c : Dev nD) : W4 m ρ c (Proc.devRef .tc main_v43)
    = aggregate (dense (m ((c : Thread nD τ).loc main_arg0)) (m ((c : Thread nD τ).loc main_arg2)))
        (src (m ((c : Thread nD τ).loc main_arg1))) (dst (m ((c : Thread nD τ).loc main_arg1)))
        (invSqrtDeg (F := Ideal) (dst (m ((c : Thread nD τ).loc main_arg1)))) :=
  (HostChain.mid1_agg (W3 m ρ c)).trans (aggregate_congr (W3_v15 m ρ c) (W3_v3 m ρ c) (W3_v6 m ρ c) (W3_v14 m ρ c))

/-- … and the first bias as a row. -/
theorem W4_v44 (c : Dev nD) : W4 m ρ c (Proc.devRef .tc main_v44) = shapeCast BiasRow (m ((c : Thread nD τ).loc main_arg3)) cast_bias :=
  (HostChain.mid1_bias (W3 m ρ c)).trans (congrArg (fun b => shapeCast BiasRow b cast_bias) (W3_arg3 m ρ c))

/-- After the first bias launch its output holds the first layer. -/
theorem W5_v45 (c : Dev nD) : W5 m ρ c (Proc.devRef .tc main_v45)
    = layerKer (m ((c : Thread nD τ).loc main_arg0)) (m ((c : Thread nD τ).loc main_arg2)) (m ((c : Thread nD τ).loc main_arg3))
        (src (m ((c : Thread nD τ).loc main_arg1))) (dst (m ((c : Thread nD τ).loc main_arg1)))
        (invSqrtDeg (F := Ideal) (dst (m ((c : Thread nD τ).loc main_arg1)))) :=
  (W5_arr m ρ c 2).trans ((BiasRegion1.value (V4 m ρ) c).trans (congrArg₂ biasRelu (W4_v43 m ρ c) (W4_v44 m ρ c)))

/-! ## The second layer -/

/-- After the second product launch its output holds the first layer times the second weight. -/
theorem W6_v46 (c : Dev nD) : W6 m ρ c (Proc.devRef .tc main_v46)
    = dense (layerKer (m ((c : Thread nD τ).loc main_arg0)) (m ((c : Thread nD τ).loc main_arg2)) (m ((c : Thread nD τ).loc main_arg3))
        (src (m ((c : Thread nD τ).loc main_arg1))) (dst (m ((c : Thread nD τ).loc main_arg1)))
        (invSqrtDeg (F := Ideal) (dst (m ((c : Thread nD τ).loc main_arg1))))) (m ((c : Thread nD τ).loc main_arg4)) :=
  (W6_arr m ρ c 2).trans ((DenseRegion2.value (V5 m ρ) c).trans (congrArg₂ dense (W5_v45 m ρ c) (W5_arg4 m ρ c)))

/-- THE KERNEL'S VALUE: at the last boundary the result buffer holds the two layers of the six arguments. -/
theorem result_eq (c : Dev nD) : W8 m ρ c (Proc.devRef .tc main_v76)
    = gcnKer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W8_arr m ρ c 2).trans ((BiasRegion3.value (V7 m ρ) c).trans (congrArg₂ biasRelu
    ((HostChain.mid3_agg (W6 m ρ c)).trans (aggregate_congr (W6_v46 m ρ c) (W6_v3 m ρ c) (W6_v6 m ρ c) (W6_v14 m ρ c)))
    ((HostChain.mid3_bias (W6 m ρ c)).trans (congrArg (fun b => shapeCast BiasRow b cast_bias) (W6_arg5 m ρ c)))))

/-- The kernel's run with its result at that function of the arguments, the arguments unchanged. -/
theorem run : θ_run defs (onTc (τ := τ) (main (F := Ideal))) ⟨m, fun _ => 0, ρ⟩ (fun r => ∀ c : Dev nD,
      r.2.mem ((c.tc : Thread nD τ).loc main_v76)
        = gcnKer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (GenRun.run_result m ρ)

end Cert.KernelIdeal.GcnValue

end
-- ==== Proof.RefValue.lean ====
/-
  The reference program's result as one function of its arguments: the composed term its run states IS
  `Cert.Gcn.gcnRef` of the six arguments — the same operations on the same endpoint lists and degrees, the shared pieces
  named instead of written out once per use.  Nothing is computed: both sides unfold to one term.  Stated for any
  float family.
-/
import proofs.«169589_j67164698575202_1_alg».proof.Proof.RefRun
import proofs.«169589_j67164698575202_1_alg».proof.Proof.GcnSpec

set_option maxRecDepth 16384

noncomputable section

namespace Cert.ReferenceIdeal.GcnValue

open Cert.ReferenceIdeal Cert.ReferenceIdeal.Gen
open Idealize.ShloMosaic Idealize.ShloMosaic.TcCoe Idealize.SL.Sem
open Cert.Gcn

variable {F : FTy → Type} [FloatOps F]

theorem res_eq (m : (ℓ : Loc nD τ sig) → Buf (Elt F) ℓ) (c : Dev nD) :
    RunP.res_main_v80 m c
      = gcnRef (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold RunP.res_main_v80 gcnRef layerRef addBiasRelu aggregate invSqrtDeg degree wrapNeg src dst endpoints
  rfl

end Cert.ReferenceIdeal.GcnValue

end
-- ==== Proof.lean ====
/-
  The certificate of a two-layer graph convolution over 50000 nodes and 850000 messages (800000 edges and one self loop
  per node): a kernel program that computes each layer's matrix product and its closing bias-and-rectifier step in
  launches over blocks of 5000 nodes, with the normalised neighbourhood sum between them on the host, against a reference
  that computes everything on the host.

  Over the extended reals both programs compute `Cert.Gcn.gcnKer` = `Cert.Gcn.gcnRef` of the six arguments
  (Proof/GcnSpec.lean): the graph side (endpoint lists, degrees, gather, scale, scatter-add) is the same operations in
  both; a launch's block product summed over the 128 contracted columns is the host contraction's element; the bias row
  added block by block and the maximum with zero are the reference's two broadcasts, sum and maximum.  No input needs
  to be finite for this.  The kernel's value is read off its frame's run (Proof/KernelRun.lean, Proof/KernelValue.lean:
  each launch's output array by Proof/DenseRegion0.lean … Proof/BiasRegion3.lean, each host stretch by
  Proof/HostChain.lean), the reference's off its run (Proof/RefRun.lean, Proof/RefValue.lean).  The ideal pass rewrote
  nothing, so the idealization claim is trivial; the three frames are the generated ones (the reference's is its run with
  the result dropped).
-/
import proofs.«169589_j67164698575202_1_alg».proof.Defs
import proofs.«169589_j67164698575202_1_alg».proof.Proof.Gen.Kernel
import proofs.«169589_j67164698575202_1_alg».proof.Proof.Gen.Kernel.Frame
import proofs.«169589_j67164698575202_1_alg».proof.Proof.Gen.KernelIdeal
import proofs.«169589_j67164698575202_1_alg».proof.Proof.Gen.KernelIdeal.Frame
import proofs.«169589_j67164698575202_1_alg».proof.Proof.Gen.ReferenceIdeal
import proofs.«169589_j67164698575202_1_alg».proof.Proof.Gen.Pre_finite_inputs
import proofs.«169589_j67164698575202_1_alg».proof.Proof.KernelValue
import proofs.«169589_j67164698575202_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.RunP.run (F := Ideal) m ρ)

/-- From memories that agree on the arguments both programs end with the same node features: the kernel's run ends at
    `gcnKer` of its arguments, the reference's at `gcnRef` of its own, the arguments agree, and the two are one function. -/
theorem algebraic : Cert.algebraic_KernelIdeal_ReferenceIdeal := by
  intro m ρ m' ρ' _ hagree
  refine ⟨_, Cert.KernelIdeal.GcnValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.GcnValue.res_eq, (hagree c).1, (hagree c).2.1, (hagree c).2.2.1, (hagree c).2.2.2.1, (hagree c).2.2.2.2.1,
    (hagree c).2.2.2.2.2]
  exact Cert.Gcn.gcn_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
